-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S32x256x1024 : Shape := ⟨3, ![32, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S32x256x1024, .f32⟩
  | .hbm, ⟨3, _⟩ => ⟨S8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x1024_S32x256x1024 : S8192x1024.ShapeCasts S32x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  transposes_S256x1024_p1_0_S1024x256 : S256x1024.Transposes [1, 0] S1024x256
  bitsLt_bf16_f32 : FTy.bits .bf16 < FTy.bits .f32
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  broadcasts_S1x1_S256x1024 : S1x1.Broadcasts S256x1024
  shapeCasts_S256x1024_S1x256x1024 : S256x1024.ShapeCasts S1x256x1024
  shapeCasts_S32x256x1024_S8192x1024 : S32x256x1024.ShapeCasts S8192x1024
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x256x1024.size a
  hwx0_1 : ∀ i : grid0.Coords, EltTy.bits .f32 = 32 ∨ (Rect.block (s := S32x256x1024) S1x256x1024.size (cc0_transform_1 i) (hinb0_1 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32 : Shape := ⟨1, ![32]⟩
abbrev S32x1x1 : Shape := ⟨3, ![32, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S_, .f32⟩
  | .hbm, ⟨3, _⟩ => ⟨S32x256, .f32⟩
  | .hbm, ⟨4, _⟩ => ⟨S32x256x1, .f32⟩
  | .hbm, ⟨5, _⟩ => ⟨S_, .f32⟩
  | .hbm, ⟨6, _⟩ => ⟨S32x256x1, .f32⟩
  | .hbm, ⟨7, _⟩ => ⟨S32x256x1, .f32⟩
  | .hbm, ⟨8, _⟩ => ⟨S32x256x1024, .f32⟩
  | .hbm, ⟨9, _⟩ => ⟨S32x256x1024, .f32⟩
  | .hbm, ⟨10, _⟩ => ⟨S32x1024x1024, .f32⟩
  | .hbm, ⟨11, _⟩ => ⟨S1024x1024, .i32⟩
  | .hbm, ⟨12, _⟩ => ⟨S1024x1024, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S1024x1024, .i1⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32, .f32⟩
  | .hbm, ⟨27, _⟩ => ⟨S32x1x1, .f32⟩
  | .hbm, ⟨28, _⟩ => ⟨S32x1x1, .f32⟩
  | .hbm, ⟨29, _⟩ => ⟨S1024x1024, .i32⟩
  | .hbm, ⟨30, _⟩ => ⟨S1024x1024, .i32⟩
  | .hbm, ⟨31, _⟩ => ⟨S_, .i32⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S_, .f32⟩
  | .hbm, ⟨40, _⟩ => ⟨S32x1024x1024, .f32⟩
  | .hbm, ⟨41, _⟩ => ⟨S32x1024x1024, .f32⟩
  | .hbm, ⟨42, _⟩ => ⟨S32x1024x1024, .f32⟩
  | .hbm, ⟨43, _⟩ => ⟨S_, .f32⟩
  | .hbm, ⟨44, _⟩ => ⟨S32x1024x1024, .f32⟩
  | .hbm, ⟨45, _⟩ => ⟨S32x1024x1024, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x256x1024, .f32⟩
  | .hbm, ⟨58, _⟩ => ⟨S32x1x1, .f32⟩
  | .hbm, ⟨59, _⟩ => ⟨S32x256x1024, .f32⟩
  | .hbm, ⟨60, _⟩ => ⟨S32x256x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  shapeCasts_S8192x1024_S32x256x1024 : S8192x1024.ShapeCasts S32x256x1024
  reducesTo_S32x256x1024_S32x256_d2 : S32x256x1024.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x1024_0_1_2 : S32x256x1.BroadcastsInDim S32x256x1024 (![0, 1, 2] : Fin 3 → Fin S32x256x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32_d1_2 : S32x1024x1024.ReducesTo [1, 2] S32
  bcast_S32_S32x1x1_0 : S32.BroadcastsInDim S32x1x1 (![0] : Fin 1 → Fin S32x1x1.rank)
  bcast_S1024x1024_S32x1024x1024_1_2 : S1024x1024.BroadcastsInDim S32x1024x1024 (![1, 2] : Fin 2 → Fin S32x1024x1024.rank)
  bcast_S_S32x1024x1024 : S_.BroadcastsInDim S32x1024x1024 (![] : Fin 0 → Fin S32x1024x1024.rank)
  bcast_S32x1x1_S32x256x1024_0_1_2 : S32x1x1.BroadcastsInDim S32x256x1024 (![0, 1, 2] : Fin 3 → Fin S32x256x1024.rank)
  shapeCasts_S32x256x1024_S8192x1024 : S32x256x1024.ShapeCasts S8192x1024
  dot_S32x256x1024_S32x256x1024_S32x1024x1024_1_1_2_2_0_0_wf : DotDims.WF S32x256x1024 S32x256x1024 S32x1024x1024 [1] [1] [2] [2] [0] [0]
  dot_S32x1024x1024_S32x1024x1024_S32x1024x1024_2_1_1_2_0_0_wf : DotDims.WF S32x1024x1024 S32x1024x1024 S32x1024x1024 [2] [1] [1] [2] [0] [0]
  dot_S32x256x1024_S32x1024x1024_S32x256x1024_2_1_1_2_0_0_wf : DotDims.WF S32x256x1024 S32x1024x1024 S32x256x1024 [2] [1] [1] [2] [0] [0]

variable [Facts₀]

def dot_S32x256x1024_S32x256x1024_S32x1024x1024_1_1_2_2_0_0 : DotDims S32x256x1024 S32x256x1024 S32x1024x1024 where
  lhsContracting := [1]
  rhsContracting := [1]
  lhsNonContracting := [2]
  rhsNonContracting := [2]
  lhsBatch := [0]
  rhsBatch := [0]
  wf := dot_S32x256x1024_S32x256x1024_S32x1024x1024_1_1_2_2_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x256x1024_S32x1024x1024_S32x256x1024_2_1_1_2_0_0 : DotDims S32x256x1024 S32x1024x1024 S32x256x1024 where
  lhsContracting := [2]
  rhsContracting := [1]
  lhsNonContracting := [1]
  rhsNonContracting := [2]
  lhsBatch := [0]
  rhsBatch := [0]
  wf := dot_S32x256x1024_S32x1024x1024_S32x256x1024_2_1_1_2_0_0_wf

class Facts : Prop extends Facts₀ where

variable [Facts]
-- ==== Proof.Spec.lean ====
/-
  The mathematics of one group, on the extended reals.

  A group is a 256 × 1024 matrix Z. Its rows are centred (each entry minus its row's mean, the row sum divided by
  1024); S is the 1024 × 1024 Gram matrix of the centred columns plus ε on the diagonal; ‖S‖ is the square root of the
  sum of the squares of S's entries; B₀ is the identity and two rounds of B ↦ 3/2 · B − 1/2 · ((B · B) · B) · S follow;
  the result is (Zc · B₂) divided entrywise by the square root of ‖S‖.

  Everything is written with the very operations and the very float words both programs use (the words are never
  evaluated: the same word stands on both sides), products associated as the programs associate them. The one choice
  made here is the order of the sum of squares: rows first, then the row totals (the other program sums all entries at
  once; `sumsq_flat` is the bridge, valid in any commutative additive monoid, so no finiteness is used).
-/
import Idealize.ShloMosaic.PureOps.Ideal
import Idealize.ShloMosaic.PureOps.Ideal.Laws
import Idealize.ShloMosaic.Lib.IdealHost

noncomputable section

open scoped BigOperators

namespace Cert.Whiten

open Idealize.ShloMosaic

/-- An a × b matrix of extended reals. -/
abbrev Mat (a b : Nat) := Fin a → Fin b → EReal

/-- The float words of the two programs, as the extended reals they denote: 1024, ε = f32(1e-5), 3/2, 1/2. -/
def w1024 : EReal := Ideal.ofBits .f32 0x44800000#32
def wEps : EReal := Ideal.ofBits .f32 0x3727C5AC#32
def wThreeHalves : EReal := Ideal.ofBits .f32 0x3FC00000#32
def wHalf : EReal := Ideal.ofBits .f32 0x3F000000#32

/-- The matrix product: entry (i, j) is the sum over t of A(i,t) · B(t,j). -/
def mm {a k b : Nat} (A : Mat a k) (B : Mat k b) : Mat a b := fun i j => ∑ t : Fin k, A i t * B t j

/-- The identity matrix. -/
def eye : Mat 1024 1024 := fun i j => if i = j then 1 else 0

/-- A row's mean: its sum divided by 1024. -/
def rowMean (Z : Mat 256 1024) (r : Fin 256) : EReal := Ideal.div (∑ c : Fin 1024, Z r c) w1024

/-- The centred group. -/
def centred (Z : Mat 256 1024) : Mat 256 1024 := fun r c => Z r c - rowMean Z r

/-- S: the Gram matrix of the centred columns, plus ε on the diagonal. -/
def gram (Z : Mat 256 1024) : Mat 1024 1024 :=
  fun i j => (∑ r : Fin 256, centred Z r i * centred Z r j) + wEps * eye i j

/-- The sum of the squares of a matrix's entries, row totals first. -/
def sumsq (S : Mat 1024 1024) : EReal := ∑ i : Fin 1024, ∑ j : Fin 1024, S i j * S i j

/-- ‖S‖, the Frobenius norm. -/
def frob (Z : Mat 256 1024) : EReal := Ideal.sqrt (sumsq (gram Z))

/-- One Newton–Schulz round against S: 3/2 · B − 1/2 · ((B · B) · B) · S. -/
def step (S B : Mat 1024 1024) : Mat 1024 1024 :=
  fun i j => wThreeHalves * B i j - wHalf * mm (mm (mm B B) B) S i j

/-- B₂: two rounds from the identity. -/
def iter2 (Z : Mat 256 1024) : Mat 1024 1024 := step (gram Z) (step (gram Z) eye)

/-- The group's result: (Zc · B₂) / sqrt ‖S‖. -/
def whiten (Z : Mat 256 1024) : Mat 256 1024 :=
  fun r c => Ideal.div (mm (centred Z) (iter2 Z) r c) (Ideal.sqrt (frob Z))

/-- The sum of squares taken over all entries at once is the sum by rows. -/
theorem sumsq_flat (S : Mat 1024 1024) : ∑ p : Fin 1024 × Fin 1024, S p.1 p.2 * S p.1 p.2 = sumsq S :=
  Fintype.sum_prod_type _

/-! ## The identity matrix as the two programs spell it -/

/-- Two coordinates below 1024 are the same 32-bit word exactly when they are the same coordinate. -/
theorem word_eq_iff (i j : Fin 1024) : BitVec.ofNat 32 i.val = BitVec.ofNat 32 j.val ↔ i = j := by
  constructor
  · intro h
    have h' := congrArg BitVec.toNat h
    simp only [BitVec.toNat_ofNat] at h'
    have hi := i.isLt; have hj := j.isLt
    rw [Nat.mod_eq_of_lt (by omega), Nat.mod_eq_of_lt (by omega)] at h'
    exact Fin.ext h'
  · rintro rfl; rfl

/-- The comparison bit of two coordinate words. -/
theorem cmpi_eq_words (i j : Fin 1024) :
    IntOp.cmpi .eq (BitVec.ofNat 32 i.val) (BitVec.ofNat 32 j.val) = if i = j then 1#1 else 0#1 := by
  unfold IntOp.cmpi
  by_cases h : i = j
  · subst h; simp
  · have hw : BitVec.ofNat 32 i.val ≠ BitVec.ofNat 32 j.val := fun e => h ((word_eq_iff i j).mp e)
    rw [if_neg h]
    show BitVec.ofBool (BitVec.ofNat 32 i.val == BitVec.ofNat 32 j.val) = 0#1
    rw [beq_eq_false_iff_ne.mpr hw]
    rfl

/-- A select between one and zero on that bit is the identity matrix's entry. -/
theorem select_words (i j : Fin 1024) :
    Scalar.select (IntOp.cmpi .eq (BitVec.ofNat 32 i.val) (BitVec.ofNat 32 j.val))
      (Ideal.ofBits .f32 0x3F800000#32) (Ideal.ofBits .f32 0x00000000#32) = eye i j := by
  rw [cmpi_eq_words]; unfold Scalar.select eye
  by_cases h : i = j
  · simp [h]
  · simp [h]

/-- The bit read as a number is the identity matrix's entry. -/
theorem toNat_words (i j : Fin 1024) :
    (((IntOp.cmpi .eq (BitVec.ofNat 32 i.val) (BitVec.ofNat 32 j.val)).toNat : ℝ) : EReal) = eye i j := by
  rw [cmpi_eq_words]; unfold eye
  by_cases h : i = j
  · simp [h]
  · simp [h]

end Cert.Whiten

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«176557_j12421045420977_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelPayload.lean ====
/-
  The kernel body's stored value, entry by entry, at the ideal instance.

  The body loads one group's block x (shape [1, 256, 1024]) and stores one block of the same shape. Read as the matrix
  Z(r, c) = x(0, r, c), every intermediate of the body is a matrix of the specification: the centred rows, the identity
  (a select on the comparison of the two coordinate words), the Gram matrix plus ε on the diagonal (the transposed
  operand's entry (i, r) is the centred entry (r, i), so the product's entry (i, j) is the sum over rows r), the
  Frobenius norm (row totals, then their total, then the root), the Newton–Schulz round (three products associated to
  the left, then the product with S), and the final quotient by the root of the norm. Narrowing an operand to bf16 is
  the identity on extended reals, and every product accumulates into zero, so each is the plain sum over the shared
  axis.
-/
import proofs.«176557_j12421045420977_1_alg».proof.Proof.Gen.KernelIdeal.Skeleton
import proofs.«176557_j12421045420977_1_alg».proof.Proof.Spec
import proofs.«176557_j12421045420977_1_alg».proof.Proof.LibPlainDotAny
import proofs.«176557_j12421045420977_1_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Idealize.ShloMosaic.Keepdims
open Cert.KernelIdeal Cert.KernelIdeal.Gen Cert.Whiten

/-! ## Arrays as matrices -/

/-- A rank-2 array of extended reals as a matrix. -/
def mat {a b : Nat} (v : (⟨2, ![a, b]⟩ : Shape).Idx → EReal) : Mat a b := fun i j => v (ix2 i j)

/-- A [1, 256, 1024] block as the 256 × 1024 matrix of its one slab. -/
def blockMat (x : S1x256x1024.Idx → EReal) : Mat 256 1024 := fun r c => x (ix3 (0 : Fin 1) r c)

/-! ## Layout steps at coordinates -/

/-- The block seen without its unit axis: entry (r, c) is the block's (0, r, c). -/
theorem dropUnit_apply (x : S1x256x1024.Idx → EReal) (h : S1x256x1024.ShapeCasts S256x1024) (r : Fin 256) (c : Fin 1024) :
    shapeCast S256x1024 x h (ix2 r c) = x (ix3 (0 : Fin 1) r c) :=
  shapeCast_apply x h _ _ (by
    rw [Shape.rowMajor_val_three, Shape.rowMajor_val_two]
    show (0 * 256 + r.val) * 1024 + c.val = r.val * 1024 + c.val
    omega)

/-- The result given back its unit axis: entry (0, r, c) is the matrix's (r, c). -/
theorem addUnit_apply (v : S256x1024.Idx → EReal) (h : S256x1024.ShapeCasts S1x256x1024) (u : Fin 1) (r : Fin 256) (c : Fin 1024) :
    shapeCast S1x256x1024 v h (ix3 u r c) = v (ix2 r c) :=
  shapeCast_apply v h _ _ (by
    have hu : u.val = 0 := by omega
    rw [Shape.rowMajor_val_three, Shape.rowMajor_val_two]
    show r.val * 1024 + c.val = (u.val * 256 + r.val) * 1024 + c.val
    rw [hu]; omega)

/-- The one total seen as a 1 × 1 matrix. -/
theorem one_one_apply (v : S1.Idx → EReal) (h : S1.ShapeCasts S1x1) (u u' : Fin 1) :
    shapeCast S1x1 v h (ix2 u u') = v (ix1 (0 : Fin 1)) :=
  shapeCast_apply v h _ _ (by
    have hu : u.val = 0 := by omega
    have hu' : u'.val = 0 := by omega
    rw [Shape.rowMajor_val_two, Shape.rowMajor_val_one]
    show (0 : Nat) = u.val * 1 + u'.val
    rw [hu, hu'])

/-- A 1 × 1 matrix spread over the whole result: every entry is its one entry. -/
theorem spread_apply (v : S1x1.Idx → EReal) (h : S1x1.Broadcasts S256x1024) (r : Fin 256) (c : Fin 1024) :
    broadcastTo S256x1024 v h (ix2 r c) = v (ix2 (0 : Fin 1) (0 : Fin 1)) := by
  refine broadcastTo_apply v h (ix2 r c) (ix2 (0 : Fin 1) (0 : Fin 1)) fun ax => ?_
  match ax with
  | ⟨0, _⟩ => rfl
  | ⟨1, _⟩ => rfl

/-- The transposed operand's entry (i, r) is the operand's entry (r, i). -/
theorem transpose_apply' (v : S256x1024.Idx → EReal) (h : S256x1024.Transposes [1, 0] S1024x256) (i : Fin 1024) (r : Fin 256) :
    transpose S1024x256 [1, 0] v h (ix2 i r) = v (ix2 r i) := by
  refine transpose_apply [1, 0] v h (ix2 i r) (ix2 r i) fun b => ?_
  match b with
  | ⟨0, _⟩ => rfl
  | ⟨1, _⟩ => rfl

/-! ## Sums along an axis at coordinates -/

/-- A 256 × 1024 matrix summed along its rows: entry r is the sum over the row. -/
theorem rowSum256 (v : FVec Ideal S256x1024 .f32) (h : S256x1024.Reduces [1] S256) (hφ : FKind.Formats .f32)
    (hacc : (0x00000000#32 : BitVec 32) = 0x00000000#32) (r : Fin 256) :
    multiReduction .add [1] S256 v 0x00000000#32 h hφ hacc (ix1 r) = ∑ c : Fin 1024, v (ix2 r c) := by
  refine (Ideal.multiReduction_add_single v 0x00000000#32 h hφ hacc (ix1 r)).trans ?_
  refine Finset.sum_congr rfl fun c _ => congrArg v (funext fun a => Fin.ext ?_)
  match a with
  | ⟨0, _⟩ => rfl
  | ⟨1, _⟩ => rfl

/-- A 1024 × 1024 matrix summed along its rows. -/
theorem rowSum1024 (v : FVec Ideal S1024x1024 .f32) (h : S1024x1024.Reduces [1] S1024) (hφ : FKind.Formats .f32)
    (hacc : (0x00000000#32 : BitVec 32) = 0x00000000#32) (i : Fin 1024) :
    multiReduction .add [1] S1024 v 0x00000000#32 h hφ hacc (ix1 i) = ∑ j : Fin 1024, v (ix2 i j) := by
  refine (Ideal.multiReduction_add_single v 0x00000000#32 h hφ hacc (ix1 i)).trans ?_
  refine Finset.sum_congr rfl fun c _ => congrArg v (funext fun a => Fin.ext ?_)
  match a with
  | ⟨0, _⟩ => rfl
  | ⟨1, _⟩ => rfl

/-- A 1024 × 1 column summed down: the one entry is the sum of the column. -/
theorem colSum1024 (v : FVec Ideal S1024x1 .f32) (h : S1024x1.Reduces [0] S1) (hφ : FKind.Formats .f32)
    (hacc : (0x00000000#32 : BitVec 32) = 0x00000000#32) (u : Fin 1) :
    multiReduction .add [0] S1 v 0x00000000#32 h hφ hacc (ix1 u) = ∑ i : Fin 1024, v (ix2 i (0 : Fin 1)) := by
  refine (Ideal.multiReduction_add_single v 0x00000000#32 h hφ hacc (ix1 u)).trans ?_
  refine Finset.sum_congr rfl fun c _ => congrArg v (funext fun a => Fin.ext ?_)
  have hu : u.val = 0 := by omega
  match a with
  | ⟨0, _⟩ => rfl
  | ⟨1, _⟩ => exact hu

/-! ## A product into zero as the specification's product -/

/-- The product of an M × K by a K × N matrix into a zero accumulator, whatever the operands' formats, is the
    specification's product of the two matrices. -/
theorem matmul_mm {M K N : Nat} {φ₁ φ₂ : FTy} (d : DotDims ⟨2, ![M, K]⟩ ⟨2, ![K, N]⟩ ⟨2, ![M, N]⟩)
    (hd : d = DotDims.plain M K N) (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = mm (mat A) (mat B) i j := by
  subst hd
  exact PlainDot.matmul_zero_apply_any M K N none A B (ix2 i j)

theorem dims_gram : dot_S1024x256_S256x1024_S1024x1024_1_0_0_1_n_n = DotDims.plain 1024 256 1024 := rfl
theorem dims_square : dot_S1024x1024_S1024x1024_S1024x1024_1_0_0_1_n_n = DotDims.plain 1024 1024 1024 := rfl
theorem dims_out : dot_S256x1024_S1024x1024_S256x1024_1_0_0_1_n_n = DotDims.plain 256 1024 1024 := rfl

/-! ## The payloads as matrices of the specification -/

/-- The centred rows. -/
theorem centred_eq (x : Vec Ideal S1x256x1024 .f32) : mat (k0_pay2 (F := Ideal) x) = centred (blockMat x) := by
  funext r c
  unfold mat k0_pay2 centred rowMean
  rw [subf_apply, dropUnit_apply, broadcastTo_a1_ab_apply, divf_apply, shapeCast_a_a1_apply, rowSum256]
  simp only [dropUnit_apply, broadcast_apply]
  rfl

/-- The identity. -/
theorem eye_eq : mat (k0_pay3 (F := Ideal)) = eye := by
  funext i j
  unfold mat k0_pay3
  rw [select_apply]
  show Scalar.select (IntOp.cmpi .eq (iota .tc S1024x1024 32 [0] iota_S1024x1024_d0_w32 (ix2 i j))
      (iota .tc S1024x1024 32 [1] iota_S1024x1024_d1_w32 (ix2 i j))) (Ideal.ofBits .f32 0x3F800000#32) (Ideal.ofBits .f32 0x00000000#32) = _
  rw [iota_single_apply, iota_single_apply]
  exact select_words i j

/-- S. -/
theorem gram_eq (x : Vec Ideal S1x256x1024 .f32) : mat (k0_pay4 (F := Ideal) x) = gram (blockMat x) := by
  funext i j
  unfold mat k0_pay4 gram
  rw [addf_apply, matmul_mm _ dims_gram, mulf_apply, broadcast_apply]
  congr 1
  · unfold mm
    refine Finset.sum_congr rfl fun r _ => ?_
    show transpose S1024x256 [1, 0] (k0_pay2 (F := Ideal) x) transposes_S256x1024_p1_0_S1024x256 (ix2 i r) * k0_pay2 (F := Ideal) x (ix2 r j) = _
    rw [transpose_apply', ← centred_eq]
    rfl
  · show _ * mat (k0_pay3 (F := Ideal)) i j = _
    rw [eye_eq]; rfl

/-- ‖S‖. -/
theorem frob_eq (x : Vec Ideal S1x256x1024 .f32) (u u' : Fin 1) : k0_pay5 (F := Ideal) x (ix2 u u') = frob (blockMat x) := by
  unfold k0_pay5 frob sumsq
  show Ideal.sqrt (shapeCast S1x1 _ shapeCasts_S1_S1x1 (ix2 u u')) = _
  rw [one_one_apply, colSum1024]
  congr 1
  refine Finset.sum_congr rfl fun i _ => ?_
  rw [shapeCast_a_a1_apply, rowSum1024]
  refine Finset.sum_congr rfl fun j _ => ?_
  rw [mulf_apply, ← gram_eq]
  rfl

/-- One Newton–Schulz round, for any S and B the body has at hand and any narrowed copies of them. -/
theorem step_eq (S B : FVec Ideal S1024x1024 .f32) (B1 B2 B3 S1 : FVec Ideal S1024x1024 .bf16)
    (h1 : B = B1) (h2 : B = B2) (h3 : B = B3) (hS : S = S1) (i j : Fin 1024) :
    subf (mulf (broadcast S1024x1024 (Scalar.ofBits .f32 0x3FC00000#32 : Ideal .f32)) B)
      (mulf (broadcast S1024x1024 (Scalar.ofBits .f32 0x3F000000#32 : Ideal .f32))
        (matmul dot_S1024x1024_S1024x1024_S1024x1024_1_0_0_1_n_n none
          (truncf .bf16 (matmul dot_S1024x1024_S1024x1024_S1024x1024_1_0_0_1_n_n none
            (truncf .bf16 (matmul dot_S1024x1024_S1024x1024_S1024x1024_1_0_0_1_n_n none B1 B2
              (constant S1024x1024 .f32 0x00000000#32)) bitsLt_bf16_f32) B3
            (constant S1024x1024 .f32 0x00000000#32)) bitsLt_bf16_f32) S1
          (constant S1024x1024 .f32 0x00000000#32))) (ix2 i j)
      = step (mat S) (mat B) i j := by
  subst h1 h2 h3 hS
  unfold step
  rw [subf_apply, mulf_apply, mulf_apply, broadcast_apply, broadcast_apply, matmul_mm _ dims_square]
  have e1 : mat (truncf .bf16 (matmul dot_S1024x1024_S1024x1024_S1024x1024_1_0_0_1_n_n none
            (truncf .bf16 (matmul dot_S1024x1024_S1024x1024_S1024x1024_1_0_0_1_n_n none B B
              (constant S1024x1024 .f32 0x00000000#32)) bitsLt_bf16_f32) B
            (constant S1024x1024 .f32 0x00000000#32)) bitsLt_bf16_f32 : FVec Ideal S1024x1024 .bf16)
        = mm (mm (mat B) (mat B)) (mat B) := by
    funext p q
    show matmul dot_S1024x1024_S1024x1024_S1024x1024_1_0_0_1_n_n none _ B (constant S1024x1024 .f32 0x00000000#32) (ix2 p q) = _
    rw [matmul_mm _ dims_square]
    have e0 : mat (truncf .bf16 (matmul dot_S1024x1024_S1024x1024_S1024x1024_1_0_0_1_n_n none B B
              (constant S1024x1024 .f32 0x00000000#32)) bitsLt_bf16_f32 : FVec Ideal S1024x1024 .bf16) = mm (mat B) (mat B) := by
      funext p' q'
      show matmul dot_S1024x1024_S1024x1024_S1024x1024_1_0_0_1_n_n none B B (constant S1024x1024 .f32 0x00000000#32) (ix2 p' q') = _
      rw [matmul_mm _ dims_square]
    rw [e0]
  exact congrArg (fun M : Mat 1024 1024 => wThreeHalves * mat B i j - wHalf * mm M (mat S) i j) e1

/-- B₁: one round from the identity. -/
theorem iter1_eq (x : Vec Ideal S1x256x1024 .f32) : mat (k0_pay6 (F := Ideal) x) = step (gram (blockMat x)) eye := by
  funext i j
  unfold mat k0_pay6
  refine (step_eq (k0_pay4 (F := Ideal) x) (k0_pay3 (F := Ideal)) _ _ _ _ rfl rfl rfl rfl i j).trans ?_
  rw [gram_eq, eye_eq]

/-- THE STORED VALUE at (u, r, c) is the specification's result for the loaded block's matrix, at (r, c): the second
    round (from B₁, whose narrowed copies are B₁), the product with the centred rows, the quotient by the root of the
    norm. -/
theorem stored_apply (x : Vec Ideal S1x256x1024 .f32) (u : Fin 1) (r : Fin 256) (c : Fin 1024) :
    k0_pay1 (F := Ideal) (k0_pay2 x) (k0_pay4 x) (k0_pay5 x) (k0_pay6 x) (k0_pay7 x) (k0_pay8 x) (ix3 u r c)
      = whiten (blockMat x) r c := by
  unfold k0_pay1 whiten
  rw [addUnit_apply, divf_apply, spread_apply, matmul_mm _ dims_out]
  refine congrArg₂ Ideal.div (congrFun (congrFun (congrArg₂ mm ?_ ?_) r) c) ?_
  · exact centred_eq x
  · funext p q
    refine (step_eq (k0_pay4 (F := Ideal) x) (k0_pay6 (F := Ideal) x) (k0_pay7 (F := Ideal) x) (k0_pay8 (F := Ideal) x) _ _
      rfl rfl rfl rfl p q).trans ?_
    rw [gram_eq, iter1_eq]
    rfl
  · show Ideal.sqrt (k0_pay5 (F := Ideal) x (ix2 (0 : Fin 1) (0 : Fin 1))) = _
    rw [frob_eq]

end Cert.KernelIdeal.Payload

end
-- ==== Proof.Whole.lean ====
/-
  The whole result, all 32 groups at once.

  Both programs view the [8192, 1024] argument as a [32, 256, 1024] array A (rows 256·g … 256·g + 255 are group g) and
  produce a [32, 256, 1024] array whose entry (g, r, c) depends on group g alone: it is the specification's result for
  the slab A(g, ·, ·), at (r, c).
-/
import proofs.«176557_j12421045420977_1_alg».proof.Proof.Spec
import Idealize.ShloMosaic.Lib.ValueIdx

noncomputable section

namespace Cert.Whiten

open Idealize.ShloMosaic Idealize.ShloMosaic.ValueIdx

/-- The shape of the grouped array. -/
abbrev Groups : Shape := ⟨3, ![32, 256, 1024]⟩

/-- Group g of a grouped array, as a matrix. -/
def slab (A : Groups.Idx → EReal) (g : Fin 32) : Mat 256 1024 := fun r c => A (ix3 g r c)

/-- The grouped result: each entry is its own group's result. -/
def whitenAll (A : Groups.Idx → EReal) : Groups.Idx → EReal := fun i => whiten (slab A (i 0)) (i 1) (i 2)

theorem whitenAll_apply (A : Groups.Idx → EReal) (g : Fin 32) (r : Fin 256) (c : Fin 1024) :
    whitenAll A (ix3 g r c) = whiten (slab A g) r c := rfl

/-! ## Indices are equal when their coordinates are -/

theorem idx1_eq {a : Nat} {x y : (⟨1, ![a]⟩ : Shape).Idx} (h0 : (x 0).val = (y 0).val) : x = y :=
  funext fun d => Fin.ext (by match d with | ⟨0, _⟩ => exact h0)

theorem idx2_eq {a b : Nat} {x y : (⟨2, ![a, b]⟩ : Shape).Idx} (h0 : (x 0).val = (y 0).val) (h1 : (x 1).val = (y 1).val) : x = y :=
  funext fun d => Fin.ext (by match d with | ⟨0, _⟩ => exact h0 | ⟨1, _⟩ => exact h1)

theorem idx3_eq {a b c : Nat} {x y : (⟨3, ![a, b, c]⟩ : Shape).Idx} (h0 : (x 0).val = (y 0).val) (h1 : (x 1).val = (y 1).val)
    (h2 : (x 2).val = (y 2).val) : x = y :=
  funext fun d => Fin.ext (by match d with | ⟨0, _⟩ => exact h0 | ⟨1, _⟩ => exact h1 | ⟨2, _⟩ => exact h2)

end Cert.Whiten

end
-- ==== Proof.Blocks.lean ====
/-
  The kernel's result array.

  The grid has 32 points and point t handles group t: both windows' block at t is the slab with first coordinate t
  (block index (t, 0, 0) of blocks of extent [1, 256, 1024], so the array index under block coordinate (u, r, c) is
  (t, r, c)). What point t writes back is therefore the specification's result for slab t of the array the region reads,
  which is block t of the grouped result `whitenAll` of that array; the 32 blocks cover the output array, so after the
  run it holds `whitenAll` of the input array. Around the region the program only changes shape: the input array is the
  argument viewed as [32, 256, 1024] and the program's result is the output array viewed as [8192, 1024].
-/
import proofs.«176557_j12421045420977_1_alg».proof.Proof.Gen.KernelIdeal.Frame
import proofs.«176557_j12421045420977_1_alg».proof.Proof.KernelPayload
import proofs.«176557_j12421045420977_1_alg».proof.Proof.Whole
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen Cert.KernelIdeal.Payload Cert.Whiten

variable (m : (ℓ : Loc nD τ sig) → Buf (Elt Ideal) ℓ) (ρ : Dev nD → PrngReg)

/-- The array the region reads, as the region finds it. -/
abbrev inArr (c : Dev nD) : Vec Ideal S32x256x1024 .f32 := V m c main_v0

theorem hz : (![0, 0, 0] : Fin 3 → Nat) = fun _ => 0 := funext fun a => by fin_cases a <;> rfl

/-- Both index maps send point t to block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0)

/-- A grid point as a group number. -/
def grp (t : Fin cfg0.N) : Fin 32 := ⟨t.val, lt_of_lt_of_eq t.isLt N_0⟩

/-- Under the input window's block at t, block coordinate (u, r, c) is array index (t, r, c). -/
theorem emb_in (t : Fin cfg0.N) (u : Fin 1) (r : Fin 256) (q : Fin 1024) :
    ((cfg0.win 0).blk t).view.emb (ix3 u r q) = ix3 (grp t) r q := by
  obtain ⟨e0, e1, e2, e3, e4, e5⟩ := idx_facts t
  have h0 : u.val < 1 := u.isLt
  refine idx3_eq ?_ ?_ ?_
  · show win0_0.index t (0 : Fin 3) * 1 + 1 * u.val = t.val; omega
  · show win0_0.index t (1 : Fin 3) * 256 + 1 * r.val = r.val; omega
  · show win0_0.index t (2 : Fin 3) * 1024 + 1 * q.val = q.val; omega

/-- The same under the output window's block. -/
theorem emb_out (t : Fin cfg0.N) (u : Fin 1) (r : Fin 256) (q : Fin 1024) :
    ((cfg0.win 1).blk t).view.emb (ix3 u r q) = ix3 (grp t) r q := by
  obtain ⟨e0, e1, e2, e3, e4, e5⟩ := idx_facts t
  have h0 : u.val < 1 := u.isLt
  refine idx3_eq ?_ ?_ ?_
  · show win0_1.index t (0 : Fin 3) * 1 + 1 * u.val = t.val; omega
  · show win0_1.index t (1 : Fin 3) * 256 + 1 * r.val = r.val; omega
  · show win0_1.index t (2 : Fin 3) * 1024 + 1 * q.val = q.val; omega

/-- The input block at t, as a matrix, is slab t of the input array. -/
theorem block_slab (c : Dev nD) (t : Fin cfg0.N) : blockMat (iblk m c 0 t) = slab (inArr m c) (grp t) := by
  funext r q
  show V m c main_v0 (((cfg0.win 0).blk t).view.emb (ix3 (0 : Fin 1) r q)) = V m c main_v0 (ix3 (grp t) r q)
  rw [emb_in]

/-- At block coordinate y the body's stored value is the grouped result at the array index under y. -/
theorem point_eq (c : Dev nD) (t : Fin cfg0.N) (y : S1x256x1024.Idx) :
    k0_pay1 (F := Ideal) (k0_pay2 (iblk m c 0 t)) (k0_pay4 (iblk m c 0 t)) (k0_pay5 (iblk m c 0 t)) (k0_pay6 (iblk m c 0 t))
        (k0_pay7 (iblk m c 0 t)) (k0_pay8 (iblk m c 0 t)) y
      = whitenAll (inArr m c) (((cfg0.win 1).blk t).view.emb y) := by
  obtain ⟨u, r, q, rfl⟩ : ∃ (u : Fin 1) (r : Fin 256) (q : Fin 1024), y = ix3 u r q := ⟨y 0, y 1, y 2, eq_ix3 y⟩
  rw [emb_out, whitenAll_apply, ← block_slab]
  exact stored_apply (iblk m c 0 t) u r q

/-- WHAT POINT t WRITES BACK is block t of the grouped result of the input array. -/
theorem flushed_eq (c : Dev nD) (t : Fin cfg0.N) :
    (dats m 0 c).flushed 1 t = ((cfg0.win 1).blk t).view.read (Elt Ideal) (whitenAll (inArr m c)) := by
  show (cfg0.win 1).cut (grid0.coords t) ((dats m 0 c).after 1 t) = _
  rw [after0_1]
  unfold out0_1
  rw [View.canon_unit_zero hz]
  simp only [View.ld_unit_zero (S := S1x256x1024) hz]
  funext y
  exact point_eq m c t y

/-- An index of the output array is in point t's block iff each coordinate is in the block's range on its axis. -/
theorem mem_blk (t : Fin cfg0.N) (i : S32x256x1024.Idx) :
    i ∈ ((cfg0.win 1).blk t).view.set ↔ ∀ a : Fin 3, win0_1.index t a * S1x256x1024.size a ≤ (i a).val
      ∧ (i a).val < win0_1.index t a * S1x256x1024.size a + S1x256x1024.size a := by
  show i ∈ ((View.whole main_v1).slice (win0_1.rect t)).set ↔ _
  rw [View.set_slice_whole, Rect.mem_set_unit]
  exact Iff.rfl

/-- Every index of the output array is in the block of the point its first coordinate names. -/
theorem cover (i : S32x256x1024.Idx) :
    ∃ t : Fin cfg0.N, (cfg0.win 1).flush t = true ∧ i ∈ ((cfg0.win 1).blk t).view.set := by
  have h0 : (i 0).val < 32 := (i 0).isLt
  have h1 : (i 1).val < 256 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  obtain ⟨e0, e1, e2, e3, e4, e5⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 1024 ≤ (i 2).val ∧ (i 2).val < win0_1.index t (2 : Fin 3) * 1024 + 1024; omega

/-- THE OUTPUT ARRAY after the run is the grouped result of the input array. -/
theorem final (c : Dev nD) : (dats m 0 c).arrAt 1 cfg0.N = whitenAll (inArr m c) :=
  (dats m 0 c).arrAt_eq_of_cover 1 (whitenAll (inArr m c)) (fun t _ => flushed_eq m c t) cover

/-- The input array is the argument viewed as [32, 256, 1024]. -/
theorem inArr_eq (c : Dev nD) :
    inArr m c = shapeCast S32x256x1024 (m ((c : Thread nD τ).loc main_arg0)) shapeCasts_S8192x1024_S32x256x1024 := by
  show StableHlo.after hostOps0 (fun b => m (c, b)) (Proc.devRef .tc main_v0) = _
  after_results
  rfl

/-- The program's result is the output array viewed as [8192, 1024]. -/
theorem result_eq (c : Dev nD) :
    Pipeline.afterTail₀ cfgs (dats m) 0 (V0 m) [hostOps1] c main_v2
      = shapeCast S8192x1024 (whitenAll (inArr m c)) shapeCasts_S32x256x1024_S8192x1024 := by
  unfold Pipeline.afterTail₀
  show StableHlo.after hostOps1 _ (Proc.devRef .tc main_v2) = _
  after_results
  have hw := (Pipeline.withArrays_arr spec0 launch0.win.arr_inj c (V0 m c) (fun w => (dats m 0 c).arrAt w cfg0.N) 1).trans (final m c)
  funext i
  show shapeCast S8192x1024 (Pipeline.withArrays spec0 c (V0 m c) (fun w => (dats m 0 c).arrAt w cfg0.N) (Proc.devRef .tc main_v1))
      shapeCasts_S32x256x1024_S8192x1024 i = _
  rw [hw]

/-- THE RUN: every weakly fair execution ends with the result at the grouped result of the reshaped argument, reshaped
    back, and the argument unchanged. -/
theorem run : θ_run defs (onTc (τ := τ) (main (F := Ideal))) ⟨m, fun _ => 0, ρ⟩ (fun r => ∀ c : Dev nD,
      r.2.mem ((c.tc : Thread nD τ).loc main_v2)
          = shapeCast S8192x1024 (whitenAll (shapeCast S32x256x1024 (m ((c.tc : Thread nD τ).loc main_arg0))
              shapeCasts_S8192x1024_S32x256x1024)) shapeCasts_S32x256x1024_S8192x1024
      ∧ r.2.mem ((c.tc : Thread nD τ).loc main_arg0) = m ((c.tc : Thread nD τ).loc main_arg0)) :=
  (θ_run defs _ _).mono (fun r h c =>
    ⟨(((h c).2 main_v2 (Pipeline.mem_restRefs_of main_v2 (by decide) (by decide))).trans (result_eq m c)).trans
        (by rw [inArr_eq]),
      ((h c).2 main_arg0 (Pipeline.mem_restRefs_of main_arg0 (by decide) (by decide))).trans (W_main_arg0 m (dats m) c)⟩)
    (run_main m ρ)

end Cert.KernelIdeal.Blocks

end
-- ==== Proof.RefValue.lean ====
/-
  The reference's grouped result is the specification's, group by group.

  The reference works on all 32 groups at once: every array carries the group as its first coordinate, every product is
  a batched one (the group is the batch axis, the shared axis the second-to-last of the right operand), and the
  identity is built once and laid along the groups. Read at (g, ·, ·) each stage is the specification's matrix for the
  slab A(g, ·, ·) of the reshaped argument A: the centred rows, S, the two Newton–Schulz rounds, the final quotient. The
  identity here is the comparison bit of the two coordinate words read as a number. The sum of the squares of S's
  entries is taken over both axes at once: the entries that reduce to group g are those with first coordinate g, a set
  in bijection with the pairs (p, q), and the sum over pairs is the sum by rows.
-/
import proofs.«176557_j12421045420977_1_alg».proof.Proof.Gen.ReferenceIdeal.Read
import proofs.«176557_j12421045420977_1_alg».proof.Proof.Whole
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Whiten

/-! ## The stages' index maps at coordinates -/

theorem i1 (g : Fin 32) (r : Fin 256) (k : Fin 1024) : idx_main_v1 (ix2 g r) k = ix3 g r k := idx3_eq rfl rfl rfl
theorem i2 (g : Fin 32) (r : Fin 256) (u : Fin 1) : idx_main_v2 (ix3 g r u) = ix2 g r := idx2_eq rfl rfl
theorem i5 (g : Fin 32) (r : Fin 256) (c : Fin 1024) : idx_main_v5 (ix3 g r c) = ix3 g r (0 : Fin 1) := idx3_eq rfl rfl rfl
theorem l7 (g : Fin 32) (i j : Fin 1024) (k : Fin 256) : lidx_main_v7 (ix3 g i j) k = ix3 g k i := idx3_eq rfl rfl rfl
theorem r7 (g : Fin 32) (i j : Fin 1024) (k : Fin 256) : ridx_main_v7 (ix3 g i j) k = ix3 g k j := idx3_eq rfl rfl rfl
theorem i16 (u : Fin 1) (i j : Fin 1024) : idx_main_v16 (ix3 u i j) = ix2 i j := idx2_eq rfl rfl
theorem i17 (g : Fin 32) (i j : Fin 1024) : idx_main_v17 (ix3 g i j) = ix3 (0 : Fin 1) i j := idx3_eq rfl rfl rfl
theorem i21 (g : Fin 32) (u u' : Fin 1) : idx_main_v21 (ix3 g u u') = ix1 g := idx1_eq rfl
theorem i29 (g : Fin 32) (i j : Fin 1024) : idx_main_v29 (ix3 g i j) = ix2 i j := idx2_eq rfl rfl
theorem l30 (g : Fin 32) (i j k : Fin 1024) : lidx_main_v30 (ix3 g i j) k = ix3 g i k := idx3_eq rfl rfl rfl
theorem r30 (g : Fin 32) (i j k : Fin 1024) : ridx_main_v30 (ix3 g i j) k = ix3 g k j := idx3_eq rfl rfl rfl
theorem l31 (g : Fin 32) (i j k : Fin 1024) : lidx_main_v31 (ix3 g i j) k = ix3 g i k := idx3_eq rfl rfl rfl
theorem r31 (g : Fin 32) (i j k : Fin 1024) : ridx_main_v31 (ix3 g i j) k = ix3 g k j := idx3_eq rfl rfl rfl
theorem l34 (g : Fin 32) (i j k : Fin 1024) : lidx_main_v34 (ix3 g i j) k = ix3 g i k := idx3_eq rfl rfl rfl
theorem r34 (g : Fin 32) (i j k : Fin 1024) : ridx_main_v34 (ix3 g i j) k = ix3 g k j := idx3_eq rfl rfl rfl
theorem l38 (g : Fin 32) (i j k : Fin 1024) : lidx_main_v38 (ix3 g i j) k = ix3 g i k := idx3_eq rfl rfl rfl
theorem r38 (g : Fin 32) (i j k : Fin 1024) : ridx_main_v38 (ix3 g i j) k = ix3 g k j := idx3_eq rfl rfl rfl
theorem l39 (g : Fin 32) (i j k : Fin 1024) : lidx_main_v39 (ix3 g i j) k = ix3 g i k := idx3_eq rfl rfl rfl
theorem r39 (g : Fin 32) (i j k : Fin 1024) : ridx_main_v39 (ix3 g i j) k = ix3 g k j := idx3_eq rfl rfl rfl
theorem l42 (g : Fin 32) (i j k : Fin 1024) : lidx_main_v42 (ix3 g i j) k = ix3 g i k := idx3_eq rfl rfl rfl
theorem r42 (g : Fin 32) (i j k : Fin 1024) : ridx_main_v42 (ix3 g i j) k = ix3 g k j := idx3_eq rfl rfl rfl
theorem l46 (g : Fin 32) (r : Fin 256) (c k : Fin 1024) : lidx_main_v46 (ix3 g r c) k = ix3 g r k := idx3_eq rfl rfl rfl
theorem r46 (g : Fin 32) (r : Fin 256) (c k : Fin 1024) : ridx_main_v46 (ix3 g r c) k = ix3 g k c := idx3_eq rfl rfl rfl
theorem i48 (g : Fin 32) (r : Fin 256) (c : Fin 1024) : idx_main_v48 (ix3 g r c) = ix3 g (0 : Fin 1) (0 : Fin 1) := idx3_eq rfl rfl rfl

/-! ## The stages -/

variable (x0 : (⟨S8192x1024, .f32⟩ : BufTy).Contents (Elt Ideal))

/-- The reshaped argument. -/
abbrev A : Groups.Idx → EReal := val_main_v0 (F := Ideal) x0

/-- The centred rows of group g. -/
theorem centred_eq (g : Fin 32) (r : Fin 256) (c : Fin 1024) :
    val_main_v6 (F := Ideal) x0 (ix3 g r c) = centred (slab (A x0) g) r c := by
  rw [val_main_v6_apply, val_main_v5_apply, i5, val_main_v4_apply, val_main_v2_apply, i2, val_main_v3_apply, val_main_v1_apply,
    val_main_cst_apply, val_main_cst_0_apply]
  simp only [i1, Ideal.subf_def, Ideal.hostDivf_def, Ideal.ofBits_def, Ideal.ofBits_zero_f32, zero_add]
  rfl

/-- Adding the zero word to a coordinate word changes nothing. -/
theorem addi_zero (x : BitVec 32) : IntOp.addi x 0#32 = x := by
  unfold IntOp.addi; exact BitVec.add_zero x

/-- The identity, as built for S. -/
theorem eyeA_eq (i j : Fin 1024) : val_main_v13 (F := Ideal) (ix2 i j) = eye i j := by
  rw [val_main_v13_apply, val_main_v12_apply, val_main_v11_apply, val_main_v10_apply, val_main_v9_apply, val_main_v8_apply,
    val_main_c_apply, addi_zero]
  exact toNat_words i j

/-- The identity, as built for the rounds. -/
theorem eyeB_eq (i j : Fin 1024) : val_main_v28 (F := Ideal) (ix2 i j) = eye i j := by
  rw [val_main_v28_apply, val_main_v27_apply, val_main_v26_apply, val_main_v25_apply, val_main_v24_apply, val_main_v23_apply,
    val_main_c_3_apply, addi_zero]
  exact toNat_words i j

/-- S of group g. -/
theorem gram_eq (g : Fin 32) (i j : Fin 1024) : val_main_v18 (F := Ideal) x0 (ix3 g i j) = gram (slab (A x0) g) i j := by
  rw [val_main_v18_apply, val_main_v17_apply, i17, val_main_v16_apply, i16, val_main_v15_apply, val_main_v14_apply,
    val_main_cst_1_apply, eyeA_eq, val_main_v7_apply]
  simp only [l7, r7, centred_eq, Ideal.addf_def, Ideal.mulf_def, Ideal.ofBits_def]
  rfl

/-- The entries that reduce to group g are those whose first coordinate is g. -/
theorem drop_iff (i : S32x1024x1024.Idx) (g : Fin 32) :
    reducesTo_S32x1024x1024_S32_d1_2.drop i = ix1 g ↔ (i 0).val = g.val := by
  constructor
  · intro h
    exact congrArg (fun f : S32.Idx => (f 0).val) h
  · intro h
    exact idx1_eq h

/-- A sum over the entries with first coordinate g is the sum over the pairs of the other two coordinates. -/
theorem sum_group (x : S32x1024x1024.Idx → EReal) (g : Fin 32) :
    ∑ i ∈ Finset.univ.filter (fun i : S32x1024x1024.Idx => (i 0).val = g.val), x i
      = ∑ p : Fin 1024 × Fin 1024, x (ix3 g p.1 p.2) := by
  symm
  refine Finset.sum_bij' (fun p _ => ix3 g p.1 p.2) (fun i _ => ((i 1 : Fin 1024), (i 2 : Fin 1024))) ?_ ?_ ?_ ?_ ?_
  · intro p _
    exact Finset.mem_filter.mpr ⟨Finset.mem_univ _, rfl⟩
  · intro i _
    exact Finset.mem_univ _
  · intro p _
    rfl
  · intro i hi
    have h0 : (i 0).val = g.val := (Finset.mem_filter.mp hi).2
    exact idx3_eq h0.symm rfl rfl
  · intro p _
    rfl

/-- The sum of the squares of S's entries, group g. -/
theorem sumsq_eq (g : Fin 32) : val_main_v20 (F := Ideal) x0 (ix1 g) = sumsq (gram (slab (A x0) g)) := by
  unfold val_main_v20
  rw [hostReduceAdd_apply]
  unfold Ideal.hostReduceAdd
  rw [val_main_cst_2_apply, Ideal.ofBits_def, Ideal.ofBits_zero_f32, zero_add]
  rw [Finset.filter_congr (fun i _ => drop_iff i g), sum_group, ← sumsq_flat]
  refine Finset.sum_congr rfl fun p _ => ?_
  rw [val_main_v19_apply, gram_eq]
  rfl

/-- ‖S‖ of group g. -/
theorem frob_eq (g : Fin 32) (u u' : Fin 1) : val_main_v22 (F := Ideal) x0 (ix3 g u u') = frob (slab (A x0) g) := by
  rw [val_main_v22_apply, val_main_v21_apply, i21, sumsq_eq]
  rfl

/-- The identity laid along the groups. -/
theorem eyeG_eq (g : Fin 32) (i j : Fin 1024) : val_main_v29 (F := Ideal) (ix3 g i j) = eye i j := by
  rw [val_main_v29_apply, i29, eyeB_eq]

/-- First round: the identity times itself, … -/
theorem v30_eq (g : Fin 32) (i j : Fin 1024) : val_main_v30 (F := Ideal) (ix3 g i j) = mm eye eye i j := by
  rw [val_main_v30_apply]
  simp only [l30, r30, eyeG_eq]
  rfl

/-- … times itself again, … -/
theorem v31_eq (g : Fin 32) (i j : Fin 1024) : val_main_v31 (F := Ideal) (ix3 g i j) = mm (mm eye eye) eye i j := by
  rw [val_main_v31_apply]
  simp only [l31, r31, eyeG_eq, v30_eq]
  rfl

/-- … times S, … -/
theorem v34_eq (g : Fin 32) (i j : Fin 1024) :
    val_main_v34 (F := Ideal) x0 (ix3 g i j) = mm (mm (mm eye eye) eye) (gram (slab (A x0) g)) i j := by
  rw [val_main_v34_apply]
  simp only [l34, r34, v31_eq, gram_eq]
  rfl

/-- … and B₁. -/
theorem v37_eq (g : Fin 32) (i j : Fin 1024) :
    val_main_v37 (F := Ideal) x0 (ix3 g i j) = step (gram (slab (A x0) g)) eye i j := by
  rw [val_main_v37_apply, val_main_v33_apply, val_main_v36_apply, val_main_v32_apply, val_main_v35_apply, val_main_cst_4_apply,
    val_main_cst_5_apply, eyeG_eq, v34_eq]
  rfl

/-- Second round: B₁ times itself, … -/
theorem v38_eq (g : Fin 32) (i j : Fin 1024) :
    val_main_v38 (F := Ideal) x0 (ix3 g i j) = mm (step (gram (slab (A x0) g)) eye) (step (gram (slab (A x0) g)) eye) i j := by
  rw [val_main_v38_apply]
  simp only [l38, r38, v37_eq]
  rfl

theorem v39_eq (g : Fin 32) (i j : Fin 1024) :
    val_main_v39 (F := Ideal) x0 (ix3 g i j)
      = mm (mm (step (gram (slab (A x0) g)) eye) (step (gram (slab (A x0) g)) eye)) (step (gram (slab (A x0) g)) eye) i j := by
  rw [val_main_v39_apply]
  simp only [l39, r39, v38_eq, v37_eq]
  rfl

theorem v42_eq (g : Fin 32) (i j : Fin 1024) :
    val_main_v42 (F := Ideal) x0 (ix3 g i j)
      = mm (mm (mm (step (gram (slab (A x0) g)) eye) (step (gram (slab (A x0) g)) eye)) (step (gram (slab (A x0) g)) eye))
          (gram (slab (A x0) g)) i j := by
  rw [val_main_v42_apply]
  simp only [l42, r42, v39_eq, gram_eq]
  rfl

/-- … and B₂. -/
theorem v45_eq (g : Fin 32) (i j : Fin 1024) : val_main_v45 (F := Ideal) x0 (ix3 g i j) = iter2 (slab (A x0) g) i j := by
  rw [val_main_v45_apply, val_main_v41_apply, val_main_v44_apply, val_main_v40_apply, val_main_v43_apply, val_main_cst_6_apply,
    val_main_cst_7_apply, v37_eq, v42_eq]
  rfl

/-- The grouped result at (g, r, c). -/
theorem v49_eq (g : Fin 32) (r : Fin 256) (c : Fin 1024) :
    val_main_v49 (F := Ideal) x0 (ix3 g r c) = whiten (slab (A x0) g) r c := by
  rw [val_main_v49_apply, val_main_v48_apply, i48, val_main_v47_apply, frob_eq, val_main_v46_apply]
  simp only [l46, r46, centred_eq, v45_eq]
  rfl

/-- THE REFERENCE'S GROUPED RESULT is the specification's, of the reshaped argument. -/
theorem grouped_eq : val_main_v49 (F := Ideal) x0 = whitenAll (A x0) := by
  funext i
  obtain ⟨g, r, c, rfl⟩ : ∃ (g : Fin 32) (r : Fin 256) (c : Fin 1024), i = ix3 g r c := ⟨i 0, i 1, i 2, eq_ix3 i⟩
  exact v49_eq x0 g r c

/-- THE REFERENCE'S RESULT: the grouped result of the reshaped argument, reshaped back. -/
theorem result_eq :
    val_main_v50 (F := Ideal) x0 = shapeCast S8192x1024 (whitenAll (A x0)) shapeCasts_S32x256x1024_S8192x1024 := by
  unfold val_main_v50
  rw [grouped_eq]

end Cert.ReferenceIdeal.RefValue

end
-- ==== Proof.lean ====
/-
  The kernel normalises a weight matrix group by group: the 8192 rows are 32 groups of 256; each group's rows are
  centred, the 1024 × 1024 Gram matrix S of the centred columns (plus ε on the diagonal) is formed, two Newton–Schulz
  rounds B ↦ 3/2 · B − 1/2 · ((B · B) · B) · S are run from the identity, and the centred group times B₂ is divided by the
  square root of the Frobenius norm of S. The kernel does one group per grid point on bf16-narrowed matrix-unit operands;
  the reference does all groups at once with batched products.

  On the extended reals the two are the same function. Narrowing is the identity; each product, into a zero accumulator
  or batched on the host, is the plain sum over the shared axis, associated alike on both sides; the float words (1024,
  ε, 3/2, 1/2) are the same words on both sides; the identity matrix is a select on one side and a converted comparison
  bit on the other, both "1 on the diagonal, 0 off it"; and the sum of squares is taken by rows then in total on one
  side and over all entries at once on the other, equal in any commutative monoid, so the inputs' finiteness is never
  used. Both programs reshape the argument to [32, 256, 1024] first and reshape the grouped result back last, so it is
  the grouped results that are compared: Proof/KernelPayload.lean and Proof/Blocks.lean read the kernel's off its frame
  run, Proof/RefValue.lean reads the reference's off its run, both as `whitenAll` (Proof/Whole.lean) of the reshaped
  argument. The frames of the two kernel programs are the generated ones; the reference's is its run with the result
  dropped; the ideal pass rewrote nothing, so the idealization claim is trivial.
-/
import proofs.«176557_j12421045420977_1_alg».proof.Defs
import proofs.«176557_j12421045420977_1_alg».proof.Proof.Gen.Kernel
import proofs.«176557_j12421045420977_1_alg».proof.Proof.Gen.Kernel.Skeleton
import proofs.«176557_j12421045420977_1_alg».proof.Proof.Gen.Kernel.Launch
import proofs.«176557_j12421045420977_1_alg».proof.Proof.Gen.Kernel.Points
import proofs.«176557_j12421045420977_1_alg».proof.Proof.Gen.Kernel.Frame
import proofs.«176557_j12421045420977_1_alg».proof.Proof.Gen.KernelIdeal
import proofs.«176557_j12421045420977_1_alg».proof.Proof.Gen.KernelIdeal.Skeleton
import proofs.«176557_j12421045420977_1_alg».proof.Proof.Gen.KernelIdeal.Launch
import proofs.«176557_j12421045420977_1_alg».proof.Proof.Gen.KernelIdeal.Points
import proofs.«176557_j12421045420977_1_alg».proof.Proof.Gen.KernelIdeal.Frame
import proofs.«176557_j12421045420977_1_alg».proof.Proof.Gen.ReferenceIdeal
import proofs.«176557_j12421045420977_1_alg».proof.Proof.Gen.Pre_finite_inputs
import proofs.«176557_j12421045420977_1_alg».proof.Proof.Gen.ReferenceIdeal.Run
import proofs.«176557_j12421045420977_1_alg».proof.Proof.Gen.ReferenceIdeal.Read
import proofs.«176557_j12421045420977_1_alg».proof.Proof.Blocks
import proofs.«176557_j12421045420977_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree => ⟨_, Cert.KernelIdeal.Blocks.run m ρ,
    (θ_run Cert.ReferenceIdeal.defs _ _).mono (fun _ h c => ⟨by
        rw [(h c).1, Cert.ReferenceIdeal.Read.val_main_v50_eq, Cert.ReferenceIdeal.RefValue.result_eq, hagree c]
        rfl, (h c).2⟩)
      (Cert.ReferenceIdeal.Value.run (F := Ideal) m' ρ')⟩⟩

end Cert.Proof

end
